-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x2048 : Shape := ⟨3, ![32, 1024, 2048]⟩
abbrev S1024x1024 : Shape := ⟨2, ![1024, 1024]⟩
abbrev S1024 : Shape := ⟨1, ![1024]⟩
abbrev S_ : Shape := ⟨0, ![]⟩

class Facts : Prop where
  bcast_S_S32x1024x2048 : S_.BroadcastsInDim S32x1024x2048 (![] : Fin 0 → Fin S32x1024x2048.rank)
  reducesTo_S32x1024x2048_S_d0_1_2 : S32x1024x2048.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32x1024x2048 .f32) (main_arg1 : FVec F S1024x1024 .f32) (main_arg2 : FVec F S1024 .f32) : IVec S_ 1 :=
  let main_v0 : FVec F S32x1024x2048 .f32 := Host.absf main_arg0
  let main_cst : FVec F S_ .f32 := constant S_ .f32 0x7F800000#32
  let main_v1 : FVec F S32x1024x2048 .f32 := broadcastInDim S32x1024x2048 ![] bcast_S_S32x1024x2048 main_cst
  let main_v2 : IVec S32x1024x2048 1 := cmpf .olt main_v0 main_v1
  let main_c : IVec S_ 1 := constantI S_ 1 1#1
  let main_v3 : IVec S_ 1 := (fun x v => Host.reduce IntOp.andi x v reducesTo_S32x1024x2048_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32x1024x2048 : Shape := ⟨3, ![32, 1024, 2048]⟩
abbrev S1024x1024 : Shape := ⟨2, ![1024, 1024]⟩
abbrev S1024 : Shape := ⟨1, ![1024]⟩
abbrev S1x1024 : Shape := ⟨2, ![1, 1024]⟩
abbrev S32x1024 : Shape := ⟨2, ![32, 1024]⟩
abbrev S8x1024x512 : Shape := ⟨3, ![8, 1024, 512]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024x2048, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S32x1024, .f32⟩
  | .local _ .vmem, ⟨0, _⟩ => ⟨S8x1024x512, .f32⟩
  | .local _ .vmem, ⟨1, _⟩ => ⟨S8x1024x512, .f32⟩
  | .local _ .vmem, ⟨2, _⟩ => ⟨S1024x1024, .f32⟩
  | .local _ .vmem, ⟨3, _⟩ => ⟨S1x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024_S1x1024 : S1024.ShapeCasts S1x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x1024x512_S8x1024x512_0_0_0 : ∀ a, (![0, 0, 0] : Fin 3 → Nat) a + S8x1024x512.size a ≤ S8x1024x512.size a
  h_S8x1024x512 : 0 < S8x1024x512.numel
  reduces_S8x1024x512_S8x1024 : S8x1024x512.Reduces [2] S8x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  dot_S8x1024_S1024x1024_S8x1024_1_1_0_0_n_n_wf : DotDims.WF S8x1024 S1024x1024 S8x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x512.size a ≤ S32x1024x2048.size a
  hwx0_0 : ∀ i : grid0.Coords, EltTy.bits .f32 = 32 ∨ (Rect.block (s := S32x1024x2048) S8x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x1024.size a
  hwx0_3 : ∀ i : grid0.Coords, EltTy.bits .f32 = 32 ∨ (Rect.block (s := S32x1024) S8x1024.size (cc0_transform_3 i) (hinb0_3 i)).WholeWords (EltTy.packing .f32)

variable [Facts₀]

def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf

abbrev win0_0 : Pipeline.Window sig grid0 :=
  Pipeline.Window.ofSpec (Memref.whole main_arg0) S8x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x1024x2048 : Shape := ⟨3, ![32, 1024, 2048]⟩
abbrev S1024x1024 : Shape := ⟨2, ![1024, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32x1024x2048, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .i1⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1024, .f32⟩
  | _, _ => ⟨S32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]

class Facts₀ : Prop where
  reducesTo_S32x1024x2048_S32x1024_d2 : S32x1024x2048.ReducesTo [2] S32x1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  dot_S32x1024_S1024x1024_S32x1024_1_1_0_0_n_n_wf : DotDims.WF S32x1024 S1024x1024 S32x1024 [1] [1] [0] [0] [] []

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

class Facts : Prop extends Facts₀ where

variable [Facts]
-- ==== Proof.BodyPieces.lean ====
/-
  What one run of the kernel body leaves behind, case by case, as values.

  The body keeps a running sum in a scratch block of shape [8, 1024]. At the first step of a row of steps it stores
  zeros there and then adds the lane sums of the current input block to what it reads back; at the other steps it adds
  them to what the step before left; at the last step of the row it also reads the finished sum back and stores the
  activation of its projection into the output block. Each statement below says that what a case leaves in the scratch,
  or in the output block, is the corresponding pure expression of the blocks the body loaded: every load reads a whole
  buffer through zero offsets, and every store covers its whole buffer.
-/
import proofs.«127463_j77738908058130_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Zero offsets in two and in three axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves in the scratch what it found there plus the lane sums of the input block. -/
theorem scratch_B (c : Dev nD) (i : grid0.Coords) (arg2 : Memref sig .tc .vmem S8x1024x512 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : ¬cond0_1 i)
    (x0 : Vec F S8x1024x512 .f32) (x1 : Vec F S1024x1024 .f32) (x2 : Vec F S1x1024 .f32) (xs0 : Vec F S8x1024 .f32) :
    sout0_B_0 c i arg2 harg2 arg3 harg3 arg4 harg4 arg5 harg5 arg6 harg6 hc0 hc1 x0 x1 x2 xs0 = k0_pay2 xs0 x0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg6.read_unread, harg2.read_unread, View.ld_unit_zero (S := S8x1024) hz2,
    View.ld_unit_zero (S := S8x1024x512) hz3]

/-- A first step stores zeros, reads them back, and leaves zeros plus the lane sums of the input block. -/
theorem scratch_A (c : Dev nD) (i : grid0.Coords) (arg2 : Memref sig .tc .vmem S8x1024x512 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : cond0_0 i) (hc1 : ¬cond0_1 i)
    (x0 : Vec F S8x1024x512 .f32) (x1 : Vec F S1024x1024 .f32) (x2 : Vec F S1x1024 .f32) :
    sout0_A_0 c i arg2 harg2 arg3 harg3 arg4 harg4 arg5 harg5 arg6 harg6 hc0 hc1 x0 x1 x2 = k0_pay2 (k0_pay1 (F := F)) x0 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x1024) hz2, View.readCov_unit_zero (S := S8x1024) _ hz2]
  simp only [View.readAt_eq_ld, harg2.read_unread, View.ld_unit_zero (S := S8x1024x512) hz3]

/-- A last step leaves in the scratch the same as a middle step: what it found plus the lane sums. -/
theorem scratch_C (c : Dev nD) (i : grid0.Coords) (arg2 : Memref sig .tc .vmem S8x1024x512 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x1024x512 .f32) (x1 : Vec F S1024x1024 .f32) (x2 : Vec F S1x1024 .f32) (xs0 : Vec F S8x1024 .f32) :
    sout0_C_0 c i arg2 harg2 arg3 harg3 arg4 harg4 arg5 harg5 arg6 harg6 hc0 hc1 x0 x1 x2 xs0 = k0_pay2 xs0 x0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg6.read_unread, harg2.read_unread, View.ld_unit_zero (S := S8x1024) hz2,
    View.ld_unit_zero (S := S8x1024x512) hz3]

/-- A last step leaves in the output block the activation of the projected FINISHED sum: the sum it has just stored,
    read back, against the weight block and the bias block. -/
theorem out_C (c : Dev nD) (i : grid0.Coords) (arg2 : Memref sig .tc .vmem S8x1024x512 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : ¬cond0_0 i) (hc1 : cond0_1 i)
    (x0 : Vec F S8x1024x512 .f32) (x1 : Vec F S1024x1024 .f32) (x2 : Vec F S1x1024 .f32) (xs0 : Vec F S8x1024 .f32) :
    out0_C_3 c i arg2 harg2 arg3 harg3 arg4 harg4 arg5 harg5 arg6 harg6 hc0 hc1 x0 x1 x2 xs0 = k0_pay3 (k0_pay2 xs0 x0) x1 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, View.readCov_unit_zero (S := S8x1024) _ hz2, harg6.read_unread, harg2.read_unread,
    harg3.read_unread, harg4.read_unread, View.ld_unit_zero (S := S8x1024) hz2,
    View.ld_unit_zero (S := S8x1024x512) hz3, View.ld_unit_zero (S := S1024x1024) hz2,
    View.ld_unit_zero (S := S1x1024) hz2]

end Cert.KernelIdeal.Pieces

end
-- ==== Proof.PooledMish.lean ====
/-
  The mathematics of the pooled projection with a mish tail, over the extended reals, with no program in sight.

  The input `x` has shape [32, 1024, 2048]; summing it along its last axis gives `s[p, c] = ∑ l, x[p, c, l]`. The
  result at `(p, o)` is `mish (∑ c, s[p, c] * W[o, c] + 2048 * b[o])`, where `mish y = y * tanh (softplus y)` and
  `softplus y = max y 0 + log1p (exp (-|y|))`.

  The sum along the last axis is taken in four stretches of 512 lanes by one side and in one go by the other, so the
  partial sums are stated over a natural number of lanes (`laneSum`): a partial sum of `n + k` lanes is the one of `n`
  lanes plus the next `k` lanes (`laneSum_add`), which needs only that addition of extended reals is associative —
  no finiteness of the entries.
-/
import Idealize.ShloMosaic.PureOps.Ideal
import Idealize.ShloMosaic.PureOps.Ideal.Laws
import Idealize.ShloMosaic.Lib.ValueIdx
import Mathlib.Algebra.BigOperators.Intervals

noncomputable section

open scoped BigOperators

namespace Cert.PooledMish

open Idealize.ShloMosaic Idealize.ShloMosaic.ValueIdx

/-- The shapes of the three arguments and of the result. -/
abbrev SX : Shape := ⟨3, ![32, 1024, 2048]⟩
abbrev SW : Shape := ⟨2, ![1024, 1024]⟩
abbrev SB : Shape := ⟨1, ![1024]⟩
abbrev SO : Shape := ⟨2, ![32, 1024]⟩

/-! ## Sums along the last axis, a stretch of lanes at a time -/

/-- Entry `(p, c, l)` of `x` for natural row and lane numbers, zero outside the array. -/
def lane (x : SX.Idx → EReal) (p : ℕ) (c : Fin 1024) (l : ℕ) : EReal :=
  if h : p < 32 ∧ l < 2048 then x (ix3 ⟨p, h.1⟩ c ⟨l, h.2⟩) else 0

theorem lane_eq (x : SX.Idx → EReal) (p : Fin 32) (c : Fin 1024) (l : Fin 2048) :
    lane x p.val c l.val = x (ix3 p c l) := by
  unfold lane
  rw [dif_pos ⟨p.isLt, l.isLt⟩]

/-- The sum of the first `n` lanes of row `(p, c)`. -/
def laneSum (x : SX.Idx → EReal) (p : ℕ) (c : Fin 1024) (n : ℕ) : EReal :=
  ∑ l ∈ Finset.range n, lane x p c l

theorem laneSum_zero (x : SX.Idx → EReal) (p : ℕ) (c : Fin 1024) : laneSum x p c 0 = 0 := by
  unfold laneSum
  rw [Finset.range_zero, Finset.sum_empty]

/-- A longer partial sum is the shorter one plus the lanes after it. -/
theorem laneSum_add (x : SX.Idx → EReal) (p : ℕ) (c : Fin 1024) (n k : ℕ) :
    laneSum x p c (n + k) = laneSum x p c n + ∑ q : Fin k, lane x p c (n + q.val) := by
  unfold laneSum
  rw [Finset.sum_range_add]
  exact congrArg (_ + ·) (Finset.sum_range fun q => lane x p c (n + q))

/-- All 2048 lanes: the sum along the whole last axis. -/
theorem laneSum_full (x : SX.Idx → EReal) (p : Fin 32) (c : Fin 1024) :
    laneSum x p.val c 2048 = ∑ l : Fin 2048, x (ix3 p c l) := by
  unfold laneSum
  rw [Finset.sum_range]
  exact Finset.sum_congr rfl fun l _ => lane_eq x p c l

/-! ## The mish tail on one extended real -/

/-- `softplus y = max y 0 + log1p (exp (-|y|))`, with `|y| = max y (-y)`. -/
def softplus (y : EReal) : EReal := max y 0 + Ideal.log1p (Ideal.exp (-(max y (-y))))

/-- `mish y = y * tanh (softplus y)`. -/
def mish (y : EReal) : EReal := y * Ideal.tanh (softplus y)

/-- The word `+0.0` is the extended real zero. -/
theorem zero_word : Ideal.ofBits .f32 0x00000000#32 = 0 := Ideal.ofBits_zero_f32

/-- "Not equal to itself" never holds on the extended reals, under either spelling of the comparison. -/
theorem cmp_one_self (v : EReal) : Ideal.cmp .one v v = 0#1 := by
  unfold Ideal.cmp
  simp
theorem cmp_une_self (v : EReal) : Ideal.cmp .une v v = 0#1 := by
  unfold Ideal.cmp
  simp

/-- The guarded spelling with `0 - |v|`: the guard `v ≠ v` never fires, `y - 0 = y`, and `0 - a = -a`. -/
theorem softplus_sub_form (y : EReal) :
    Scalar.select (Ideal.cmp .one (y - Ideal.ofBits .f32 0x00000000#32) (y - Ideal.ofBits .f32 0x00000000#32))
        (y + Ideal.ofBits .f32 0x00000000#32)
        (max y (Ideal.ofBits .f32 0x00000000#32)
          + Ideal.log1p (Ideal.exp (Ideal.ofBits .f32 0x00000000#32
              - max (y - Ideal.ofBits .f32 0x00000000#32) (-(y - Ideal.ofBits .f32 0x00000000#32)))))
      = softplus y := by
  rw [cmp_one_self, select_zero, zero_word, sub_zero, zero_sub]
  rfl

/-- The guarded spelling with a negation. -/
theorem softplus_neg_form (y : EReal) :
    Scalar.select (Ideal.cmp .une (y - Ideal.ofBits .f32 0x00000000#32) (y - Ideal.ofBits .f32 0x00000000#32))
        (y + Ideal.ofBits .f32 0x00000000#32)
        (max y (Ideal.ofBits .f32 0x00000000#32)
          + Ideal.log1p (Ideal.exp (-(max (y - Ideal.ofBits .f32 0x00000000#32) (-(y - Ideal.ofBits .f32 0x00000000#32))))))
      = softplus y := by
  rw [cmp_une_self, select_zero, zero_word, sub_zero]
  rfl

/-! ## The result -/

/-- The pre-activation at `(p, o)`: the pooled row `p` against row `o` of `W`, plus 2048 times the bias. -/
def pre (x : SX.Idx → EReal) (W : SW.Idx → EReal) (b : SB.Idx → EReal) (p : ℕ) (o : Fin 1024) : EReal :=
  (∑ c : Fin 1024, laneSum x p c 2048 * W (ix2 o c)) + Ideal.ofBits .f32 0x45000000#32 * b (ix1 o)

/-- The whole result array as one function of the three arguments. -/
def result (x : SX.Idx → EReal) (W : SW.Idx → EReal) (b : SB.Idx → EReal) : SO.Idx → EReal :=
  fun i => mish (pre x W b (i 0).val (i 1))

end Cert.PooledMish

end
-- ==== Proof.PayloadAt.lean ====
/-
  The three expressions the kernel body stores, read at one index over the extended reals.

  * The reset block is zero everywhere.
  * The accumulation step at `(r, c)` is the old value there plus the sum of the 512 lanes of row `(r, c)` of the
    input block.
  * The activation step at `(r, o)` is `mish` of the pre-activation: the finished sums of row `r` against row `o` of the
    weight block (both operands are contracted along their second axis, and the change of float format before the
    product is the identity here), plus 2048 times the bias block's one row at `o`.
-/
import proofs.«127463_j77738908058130_1_alg».proof.Proof.Gen.KernelIdeal.Skeleton
import proofs.«127463_j77738908058130_1_alg».proof.Proof.PooledMish
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx Cert.PooledMish

/-! ## The reset and the accumulation -/

/-- The block the reset stores is zero at every index. -/
theorem zeros_apply (j : S8x1024.Idx) : (k0_pay1 (F := Ideal)) j = 0 := by
  unfold k0_pay1
  rw [shapeCast_self]
  exact Ideal.ofBits_zero_f32

/-- The sum along the last axis of an [8, 1024, 512] block at `(r, c)`: its 512 lanes there. -/
theorem lanes_apply (v4 : FVec Ideal S8x1024x512 .f32) (r : Fin 8) (c : Fin 1024) :
    multiReduction .add [2] S8x1024 v4 0x00000000#32 reduces_S8x1024x512_S8x1024 (.inl rfl) rfl (ix2 r c)
      = ∑ q : Fin 512, v4 (ix3 r c q) := by
  refine (Ideal.multiReduction_add_single v4 0x00000000#32 reduces_S8x1024x512_S8x1024 (.inl rfl) rfl (ix2 r c)).trans ?_
  refine Finset.sum_congr rfl fun q _ => congrArg v4 ?_
  funext a
  apply Fin.ext
  match a with
  | ⟨0, _⟩ => rfl
  | ⟨1, _⟩ => rfl
  | ⟨2, _⟩ => rfl

/-- The accumulation step: old value plus the block's lanes. -/
theorem accumulate_apply (v3 : FVec Ideal S8x1024 .f32) (v4 : FVec Ideal S8x1024x512 .f32) (r : Fin 8) (c : Fin 1024) :
    k0_pay2 v3 v4 (ix2 r c) = v3 (ix2 r c) + ∑ q : Fin 512, v4 (ix3 r c q) := by
  unfold k0_pay2
  rw [shapeCast_self]
  exact congrArg (v3 (ix2 r c) + ·) (lanes_apply v4 r c)

/-! ## The projection: both operands contracted along their second axis -/

theorem lhs_axis0 (i : S8x1024.Idx) (q : dot_S8x1024_S1024x1024_S8x1024_1_1_0_0_n_n.contr.Idx) :
    (dot_S8x1024_S1024x1024_S8x1024_1_1_0_0_n_n.lhsIdx i q 0).val = (i 0).val := by
  unfold DotDims.lhsIdx
  rw [dif_neg (show ¬(0 : Fin S8x1024.rank) ∈ dot_S8x1024_S1024x1024_S8x1024_1_1_0_0_n_n.lhsBatch by decide), dif_pos (show (0 : Fin S8x1024.rank) ∈ dot_S8x1024_S1024x1024_S8x1024_1_1_0_0_n_n.lhsNonContracting by decide)]
  rfl
theorem lhs_axis1 (i : S8x1024.Idx) (q : dot_S8x1024_S1024x1024_S8x1024_1_1_0_0_n_n.contr.Idx) :
    (dot_S8x1024_S1024x1024_S8x1024_1_1_0_0_n_n.lhsIdx i q 1).val = (q ⟨0, by decide⟩).val :=
  dot_S8x1024_S1024x1024_S8x1024_1_1_0_0_n_n.lhsIdx_val_of_single rfl i q
theorem rhs_axis0 (i : S8x1024.Idx) (q : dot_S8x1024_S1024x1024_S8x1024_1_1_0_0_n_n.contr.Idx) :
    (dot_S8x1024_S1024x1024_S8x1024_1_1_0_0_n_n.rhsIdx i q 0).val = (i 1).val := by
  unfold DotDims.rhsIdx
  rw [dif_neg (show ¬(0 : Fin S1024x1024.rank) ∈ dot_S8x1024_S1024x1024_S8x1024_1_1_0_0_n_n.rhsBatch by decide), dif_pos (show (0 : Fin S1024x1024.rank) ∈ dot_S8x1024_S1024x1024_S8x1024_1_1_0_0_n_n.rhsNonContracting by decide)]
  rfl
theorem rhs_axis1 (i : S8x1024.Idx) (q : dot_S8x1024_S1024x1024_S8x1024_1_1_0_0_n_n.contr.Idx) :
    (dot_S8x1024_S1024x1024_S8x1024_1_1_0_0_n_n.rhsIdx i q 1).val = (q ⟨0, by decide⟩).val :=
  dot_S8x1024_S1024x1024_S8x1024_1_1_0_0_n_n.rhsIdx_val_of_single rfl i q

/-- The product into a zero accumulator at `(r, o)`: row `r` of the left operand against row `o` of the right. -/
theorem project_apply (A : FVec Ideal S8x1024 .bf16) (B : FVec Ideal S1024x1024 .bf16) (r : Fin 8) (o : Fin 1024) :
    matmul dot_S8x1024_S1024x1024_S8x1024_1_1_0_0_n_n none A B (constant S8x1024 .f32 0x00000000#32) (ix2 r o)
      = ∑ k : Fin 1024, A (ix2 r k) * B (ix2 o k) := by
  simp only [matmul]
  rw [Ideal.matmul_constant_zero_apply, ← Equiv.sum_comp (contrEquiv1 dot_S8x1024_S1024x1024_S8x1024_1_1_0_0_n_n 1024 rfl rfl).symm]
  refine Finset.sum_congr rfl fun k _ => ?_
  have hk := contrEquiv1_symm_val dot_S8x1024_S1024x1024_S8x1024_1_1_0_0_n_n 1024 rfl rfl k
  have el : dot_S8x1024_S1024x1024_S8x1024_1_1_0_0_n_n.lhsIdx (ix2 r o) ((contrEquiv1 dot_S8x1024_S1024x1024_S8x1024_1_1_0_0_n_n 1024 rfl rfl).symm k) = ix2 r k := funext fun a => Fin.ext (by
    match a with
    | ⟨0, _⟩ => exact lhs_axis0 _ _
    | ⟨1, _⟩ => exact (lhs_axis1 _ _).trans hk)
  have er : dot_S8x1024_S1024x1024_S8x1024_1_1_0_0_n_n.rhsIdx (ix2 r o) ((contrEquiv1 dot_S8x1024_S1024x1024_S8x1024_1_1_0_0_n_n 1024 rfl rfl).symm k) = ix2 o k := funext fun a => Fin.ext (by
    match a with
    | ⟨0, _⟩ => exact rhs_axis0 _ _
    | ⟨1, _⟩ => exact (rhs_axis1 _ _).trans hk)
  rw [el, er]

/-! ## The activation step -/

/-- The pre-activation block: the projected sums plus 2048 times the bias row, broadcast over the eight rows. -/
def preact (s : FVec Ideal S8x1024 .f32) (w : FVec Ideal S1024x1024 .f32) (b : FVec Ideal S1x1024 .f32) : FVec Ideal S8x1024 .f32 :=
  addf (matmul dot_S8x1024_S1024x1024_S8x1024_1_1_0_0_n_n none (truncf .bf16 s bitsLt_bf16_f32) (truncf .bf16 w bitsLt_bf16_f32) (constant S8x1024 .f32 0x00000000#32))
    (broadcastTo S8x1024 (mulf (broadcast S1x1024 (Scalar.ofBits .f32 0x45000000#32)) (shapeCast S1x1024 b shapeCasts_S1x1024_S1x1024))
      broadcasts_S1x1024_S8x1024)

theorem preact_apply (s : FVec Ideal S8x1024 .f32) (w : FVec Ideal S1024x1024 .f32) (b : FVec Ideal S1x1024 .f32)
    (r : Fin 8) (o : Fin 1024) :
    preact s w b (ix2 r o)
      = (∑ k : Fin 1024, s (ix2 r k) * w (ix2 o k)) + Ideal.ofBits .f32 0x45000000#32 * b (ix2 (0 : Fin 1) o) := by
  unfold preact
  rw [addf_apply, project_apply, broadcastTo_1b_ab_apply, shapeCast_self]
  rfl

/-- The stored block is the mish tail applied to the pre-activation, entry by entry. -/
theorem activation_apply (s : FVec Ideal S8x1024 .f32) (w : FVec Ideal S1024x1024 .f32) (b : FVec Ideal S1x1024 .f32)
    (j : S8x1024.Idx) : k0_pay3 (F := Ideal) s w b j = mish (preact s w b j) := by
  unfold mish
  rw [← softplus_sub_form (preact s w b j)]
  rfl

end Cert.KernelIdeal.PayloadAt

end
-- ==== Proof.BlockReads.lean ====
/-
  What the body's three input blocks hold at a grid point, entry by entry, in terms of the argument arrays.

  The grid has sixteen points, `t = 4 * i + j` with `i` the row-block number and `j` the lane-stretch number. At point `t`
  the input block of `x` is rows `8 * i` to `8 * i + 7`, all 1024 channels, lanes `512 * j` to `512 * j + 511`; the weight
  block is the whole of `W` at every point; and the bias block is the whole of the bias, which the host has recast from
  shape [1024] to [1, 1024] before the call.
-/
import proofs.«127463_j77738908058130_1_alg».proof.Proof.Gen.KernelIdeal.Frame
import proofs.«127463_j77738908058130_1_alg».proof.Proof.PooledMish
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.BlockReads

open Cert.KernelIdeal Cert.KernelIdeal.Gen Idealize.ShloMosaic.ValueIdx Cert.PooledMish

variable (m : (ℓ : Loc nD τ sig) → Buf (Elt Ideal) ℓ)

/-- The three argument arrays as launched, and the three input blocks at a point, at their literal types. -/
abbrev xarr (c : Dev nD) : FVec Ideal S32x1024x2048 .f32 := m ((c : Thread nD τ).loc main_arg0)
abbrev warr (c : Dev nD) : FVec Ideal S1024x1024 .f32 := m ((c : Thread nD τ).loc main_arg1)
abbrev barr (c : Dev nD) : FVec Ideal S1024 .f32 := m ((c : Thread nD τ).loc main_arg2)
abbrev xblk (c : Dev nD) (t : Fin cfg0.N) : FVec Ideal S8x1024x512 .f32 := iblk m c 0 t
abbrev wblk (c : Dev nD) (t : Fin cfg0.N) : FVec Ideal S1024x1024 .f32 := iblk m c 1 t
abbrev bblk (c : Dev nD) (t : Fin cfg0.N) : FVec Ideal S1x1024 .f32 := iblk m c 2 t

/-- The block numbers of the three input windows at every point of the grid. -/
theorem block_numbers : ∀ t : Fin cfg0.N,
    win0_0.index t (0 : Fin 3) = t.val / 4 ∧ win0_0.index t (1 : Fin 3) = 0 ∧ win0_0.index t (2 : Fin 3) = t.val % 4
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of `x` at point `t`, entry `(r, c, q)`: row `8 * (t / 4) + r`, channel `c`, lane `512 * (t % 4) + q`. -/
theorem xblk_apply (c : Dev nD) (t : Fin cfg0.N) (r : Fin 8) (ch : Fin 1024) (q : Fin 512) :
    xblk m c t (ix3 r ch q) = lane (xarr m c) (8 * (t.val / 4) + r.val) ch (512 * (t.val % 4) + q.val) := by
  obtain ⟨e0, e1, e2, -, -, -, -⟩ := block_numbers t
  have hN : t.val < 16 := lt_of_lt_of_eq t.isLt (show cfg0.N = 16 from N_0)
  have hr := r.isLt
  have hq := q.isLt
  unfold lane
  rw [dif_pos ⟨by omega, by omega⟩]
  show ((cfg0.win 0).blk t).view.read (Elt Ideal) (V m c main_arg0) (ix3 r ch q) = _
  rw [View.read_apply, V_main_arg0]
  refine congrArg (m ((c : Thread nD τ).loc main_arg0)) ?_
  funext a
  apply Fin.ext
  match a with
  | ⟨0, _⟩ => show win0_0.index t (0 : Fin 3) * 8 + 1 * r.val = 8 * (t.val / 4) + r.val; omega
  | ⟨1, _⟩ => show win0_0.index t (1 : Fin 3) * 1024 + 1 * ch.val = ch.val; omega
  | ⟨2, _⟩ => show win0_0.index t (2 : Fin 3) * 512 + 1 * q.val = 512 * (t.val % 4) + q.val; omega

/-- The weight block at any point is `W`. -/
theorem wblk_apply (c : Dev nD) (t : Fin cfg0.N) (o k : Fin 1024) :
    wblk m c t (ix2 o k) = warr m c (ix2 o k) := by
  obtain ⟨-, -, -, e0, e1, -, -⟩ := block_numbers t
  show ((cfg0.win 1).blk t).view.read (Elt Ideal) (V m c main_arg1) (ix2 o k) = _
  rw [View.read_apply, V_main_arg1]
  refine congrArg (m ((c : Thread nD τ).loc main_arg1)) ?_
  funext a
  apply Fin.ext
  match a with
  | ⟨0, _⟩ => show win0_1.index t (0 : Fin 2) * 1024 + 1 * o.val = o.val; omega
  | ⟨1, _⟩ => show win0_1.index t (1 : Fin 2) * 1024 + 1 * k.val = k.val; omega

/-- The array the third window stages is the host's recast of the bias to one row. -/
theorem bias_row (c : Dev nD) :
    (V m c main_v0 : S1x1024.Idx → EReal) = shapeCast S1x1024 (barr m c) shapeCasts_S1024_S1x1024 := by
  dsimp only [V, hostOps0]
  after_results
  rfl

/-- The bias block at any point, at `(0, o)`, is the bias at `o`. -/
theorem bblk_apply (c : Dev nD) (t : Fin cfg0.N) (o : Fin 1024) :
    bblk m c t (ix2 (0 : Fin 1) o) = barr m c (ix1 o) := by
  obtain ⟨-, -, -, -, -, e0, e1⟩ := block_numbers t
  show ((cfg0.win 2).blk t).view.read (Elt Ideal) (V m c main_v0) (ix2 (0 : Fin 1) o) = _
  rw [View.read_apply]
  have hemb : ((cfg0.win 2).blk t).view.emb (ix2 (0 : Fin 1) o) = ix2 (0 : Fin 1) o := by
    funext a
    apply Fin.ext
    match a with
    | ⟨0, _⟩ => show win0_2.index t (0 : Fin 2) * 1 + 1 * 0 = 0; omega
    | ⟨1, _⟩ => show win0_2.index t (1 : Fin 2) * 1024 + 1 * o.val = o.val; omega
  rw [hemb]
  show (V m c main_v0 : S1x1024.Idx → EReal) (ix2 (0 : Fin 1) o) = _
  rw [bias_row, shapeCast_a_1a_apply]

end Cert.KernelIdeal.BlockReads

end
-- ==== Proof.RunningSum.lean ====
/-
  The scratch block after each grid point is a partial sum of `x` along its last axis.

  After point `n` (row-block `n / 4`, stretch `n % 4`) the scratch at `(r, c)` holds the sum of the first
  `512 * (n % 4 + 1)` lanes of row `8 * (n / 4) + r`, channel `c`. At the first stretch of a row-block the body starts
  again from zero; at every later stretch it adds the stretch's 512 lanes to what the point before left, and a partial
  sum of `n` lanes plus the next `k` lanes is the partial sum of `n + k` lanes. The induction is on the point.
-/
import proofs.«127463_j77738908058130_1_alg».proof.Proof.BodyPieces
import proofs.«127463_j77738908058130_1_alg».proof.Proof.PayloadAt
import proofs.«127463_j77738908058130_1_alg».proof.Proof.BlockReads

noncomputable section

open Idealize.ShloMosaic Idealize.ShloMosaic.TcCoe Idealize.SL.Sem
open Idealize.ShloMosaic.Pipeline (Dat)

namespace Cert.KernelIdeal.RunningSum

open Cert.KernelIdeal Cert.KernelIdeal.Gen Idealize.ShloMosaic.ValueIdx Cert.PooledMish
open Cert.KernelIdeal.BlockReads

variable (m : (ℓ : Loc nD τ sig) → Buf (Elt Ideal) ℓ)

/-- The scratch after point `n`, at its literal type. -/
abbrev scratchAt (c : Dev nD) (n : ℕ) (h : n < cfg0.N) : FVec Ideal S8x1024 .f32 := (outsAt0 m c n h).2

/-- The 512 lanes the body adds at point `t`, in terms of `x`. -/
theorem stretch_sum (c : Dev nD) (t : Fin cfg0.N) (r : Fin 8) (ch : Fin 1024) :
    ∑ q : Fin 512, xblk m c t (ix3 r ch q)
      = ∑ q : Fin 512, lane (xarr m c) (8 * (t.val / 4) + r.val) ch (512 * (t.val % 4) + q.val) :=
  Finset.sum_congr rfl fun q _ => xblk_apply m c t r ch q

/-- At the first stretch of a row-block the scratch ends at the sum of that stretch alone. -/
theorem first_stretch (c : Dev nD) (t : Fin cfg0.N) (h0 : t.val % 4 = 0) (r : Fin 8) (ch : Fin 1024) :
    scratchAt m c t.val t.isLt (ix2 r ch) = laneSum (xarr m c) (8 * (t.val / 4) + r.val) ch 512 := by
  have h1 : ¬t.val % 4 = 3 := by omega
  show (outsAt0 m c t.val t.isLt).2 (ix2 r ch) = _
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 r ch)).trans ?_
  refine (PayloadAt.accumulate_apply (k0_pay1 (F := Ideal)) (xblk m c t) r ch).trans ?_
  rw [PayloadAt.zeros_apply, stretch_sum, h0, zero_add]
  have e := laneSum_add (xarr m c) (8 * (t.val / 4) + r.val) ch 0 512
  rw [laneSum_zero] at e
  simp only [zero_add] at e
  rw [e]
  exact Finset.sum_congr rfl fun q _ => by rw [Nat.mul_zero, Nat.zero_add]

/-- At a later stretch the scratch ends at what the point before left plus the stretch's lanes. -/
theorem later_stretch (c : Dev nD) (t : Fin cfg0.N) (h0 : ¬t.val % 4 = 0) (r : Fin 8) (ch : Fin 1024) :
    scratchAt m c t.val t.isLt (ix2 r ch)
      = scratchAt m c (t.val - 1) (Nat.lt_of_le_of_lt (Nat.sub_le _ _) t.isLt) (ix2 r ch)
        + ∑ q : Fin 512, lane (xarr m c) (8 * (t.val / 4) + r.val) ch (512 * (t.val % 4) + q.val) := by
  show (outsAt0 m c t.val t.isLt).2 (ix2 r ch) = _
  by_cases h1 : t.val % 4 = 3
  · rw [outsAt0_C m c t h0 h1]
    dsimp only
    refine (congrFun (Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r ch)).trans ?_
    refine (PayloadAt.accumulate_apply (scratchAt m c (t.val - 1) (Nat.lt_of_le_of_lt (Nat.sub_le _ _) t.isLt)) (xblk m c t) r ch).trans ?_
    rw [stretch_sum]
  · rw [outsAt0_B m c t h0 h1]
    dsimp only
    refine (congrFun (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 r ch)).trans ?_
    refine (PayloadAt.accumulate_apply (scratchAt m c (t.val - 1) (Nat.lt_of_le_of_lt (Nat.sub_le _ _) t.isLt)) (xblk m c t) r ch).trans ?_
    rw [stretch_sum]

/-- THE INVARIANT: after point `n` the scratch holds the partial sums over the first `n % 4 + 1` stretches. -/
theorem scratch_eq (c : Dev nD) (r : Fin 8) (ch : Fin 1024) : ∀ (n : ℕ) (h : n < cfg0.N),
    scratchAt m c n h (ix2 r ch) = laneSum (xarr m c) (8 * (n / 4) + r.val) ch (512 * (n % 4 + 1))
  | 0, h => by
    have e := first_stretch m c ⟨0, h⟩ rfl r ch
    exact e
  | n + 1, h => by
    by_cases h0 : (n + 1) % 4 = 0
    · have e := first_stretch m c ⟨n + 1, h⟩ h0 r ch
      rw [h0]
      exact e
    · have e := later_stretch m c ⟨n + 1, h⟩ h0 r ch
      have ih := scratch_eq c r ch n (Nat.lt_of_succ_lt h)
      have hd : (n + 1) / 4 = n / 4 := by omega
      have hm : (n + 1) % 4 = n % 4 + 1 := by omega
      refine e.trans ?_
      show scratchAt m c n _ (ix2 r ch) + _ = _
      rw [ih]
      show laneSum (xarr m c) (8 * (n / 4) + r.val) ch (512 * (n % 4 + 1))
          + ∑ q : Fin 512, lane (xarr m c) (8 * ((n + 1) / 4) + r.val) ch (512 * ((n + 1) % 4) + q.val) = _
      rw [hd, hm, show 512 * (n % 4 + 1 + 1) = 512 * (n % 4 + 1) + 512 from by omega, laneSum_add]

/-- At the last stretch of a row-block, what the point before left plus this stretch's lanes is the sum of all 2048
    lanes: the finished sum the body reads back before it projects. -/
theorem finished_sum (c : Dev nD) (t : Fin cfg0.N) (h1 : t.val % 4 = 3) (r : Fin 8) (ch : Fin 1024) :
    k0_pay2 (F := Ideal) (scratchAt m c (t.val - 1) (Nat.lt_of_le_of_lt (Nat.sub_le _ _) t.isLt)) (xblk m c t) (ix2 r ch)
      = laneSum (xarr m c) (8 * (t.val / 4) + r.val) ch 2048 := by
  refine (PayloadAt.accumulate_apply (scratchAt m c (t.val - 1) (Nat.lt_of_le_of_lt (Nat.sub_le _ _) t.isLt)) (xblk m c t) r ch).trans ?_
  rw [stretch_sum, scratch_eq m c r ch (t.val - 1) (Nat.lt_of_le_of_lt (Nat.sub_le _ _) t.isLt)]
  have hd : (t.val - 1) / 4 = t.val / 4 := by omega
  have hm : 512 * ((t.val - 1) % 4 + 1) = 1536 := by omega
  rw [hd, hm, h1, show (2048 : ℕ) = 1536 + 512 from rfl, laneSum_add]

end Cert.KernelIdeal.RunningSum

end
-- ==== Proof.ResultArray.lean ====
/-
  The result array after the kernel's run is the pooled projection with its mish tail, as one function of the arguments.

  The output window holds rows `8 * i` to `8 * i + 7` at the four points of row-block `i`, and is written back only at
  the last of them, where the body has stored the activation of the projected finished sums. So block `i` of the
  final array is block `i` of the result function, and the four written blocks cover all 32 rows: the point that covers
  row `p` is the last point of row-block `p / 8`.
-/
import proofs.«127463_j77738908058130_1_alg».proof.Proof.Gen.KernelIdeal.Value
import proofs.«127463_j77738908058130_1_alg».proof.Proof.RunningSum

noncomputable section

open Idealize.ShloMosaic Idealize.ShloMosaic.TcCoe Idealize.SL.Sem
open Idealize.ShloMosaic.Pipeline (Dat)

namespace Cert.KernelIdeal.ResultArray

open Cert.KernelIdeal Cert.KernelIdeal.Gen Idealize.ShloMosaic.ValueIdx Cert.PooledMish
open Cert.KernelIdeal.BlockReads Cert.KernelIdeal.RunningSum

variable (m : (ℓ : Loc nD τ sig) → Buf (Elt Ideal) ℓ) (ρ : Dev nD → PrngReg)

/-- The result function at the launched arguments. -/
abbrev resultOf (c : Dev nD) : FVec Ideal S32x1024 .f32 := result (xarr m c) (warr m c) (barr m c)

/-- The output window's block numbers at every point of the grid. -/
theorem out_numbers : ∀ t : Fin cfg0.N, win0_3.index t (0 : Fin 2) = t.val / 4 ∧ win0_3.index t (1 : Fin 2) = 0 :=
  (by decide +kernel : ∀ t : Fin grid0.N, _)

/-- At the last point of a row-block the output block at `(r, o)` is the result at row `8 * (t / 4) + r`, column `o`. -/
theorem out_block (c : Dev nD) (t : Fin cfg0.N) (h0 : ¬t.val % 4 = 0) (h1 : t.val % 4 = 3) (r : Fin 8) (o : Fin 1024) :
    (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 : FVec Ideal S8x1024 .f32) (ix2 r o)
      = mish (pre (xarr m c) (warr m c) (barr m c) (8 * (t.val / 4) + r.val) o) := by
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r o)).trans ?_
  refine (PayloadAt.activation_apply (k0_pay2 (F := Ideal) (scratchAt m c (t.val - 1) (Nat.lt_of_le_of_lt (Nat.sub_le _ _) t.isLt)) (xblk m c t)) (wblk m c t) (bblk m c t) (ix2 r o)).trans ?_
  refine congrArg mish ?_
  rw [PayloadAt.preact_apply]
  unfold pre
  rw [bblk_apply]
  refine congrArg (· + _) (Finset.sum_congr rfl fun k _ => ?_)
  rw [wblk_apply, finished_sum m c t h1 r k]

/-- What a flushing point writes back is its block of the result function. -/
theorem flushed_eq (c : Dev nD) (t : Fin cfg0.N) (hf : (cfg0.win 3).flush t = true) :
    (dats m 0 c).flushed 3 t = ((cfg0.win 3).blk t).view.read (Elt Ideal) (resultOf m c) := by
  have h1 : t.val % 4 = 3 := (flush0_3 t).mp hf
  have h0 : ¬t.val % 4 = 0 := by omega
  obtain ⟨e0, e1⟩ := out_numbers t
  have hN : t.val < 16 := lt_of_lt_of_eq t.isLt (show cfg0.N = 16 from N_0)
  rw [Value.flushed3_C m c t h0 h1]
  refine funext fun (j : S8x1024.Idx) => ?_
  rw [View.read_apply]
  obtain ⟨r, o, rfl⟩ : ∃ (r : Fin 8) (o : Fin 1024), j = ix2 r o := ⟨j 0, j 1, eq_ix2 j⟩
  have hr := r.isLt
  refine (out_block m c t h0 h1 r o).trans ?_
  show resultOf m c (ix2 (⟨8 * (t.val / 4) + r.val, by omega⟩ : Fin 32) o) = _
  refine congrArg (resultOf m c) ?_
  funext a
  apply Fin.ext
  match a with
  | ⟨0, _⟩ => show 8 * (t.val / 4) + r.val = win0_3.index t (0 : Fin 2) * 8 + 1 * r.val; omega
  | ⟨1, _⟩ => show o.val = win0_3.index t (1 : Fin 2) * 1024 + 1 * o.val; omega

/-- An index of the array is in point `t`'s block iff each coordinate is in the block's range on its axis. -/
theorem mem_block (t : Fin cfg0.N) (i : S32x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v1).slice (win0_3.rect t)).set ↔ _
  rw [View.set_slice_whole, Rect.mem_set_unit]
  exact Iff.rfl

/-- Every index of the result array is in the block of a flushing point: row `p` in the last point of row-block `p / 8`. -/
theorem covered (i : S32x1024.Idx) :
    ∃ t : Fin cfg0.N, (cfg0.win 3).flush t = true ∧ i ∈ ((cfg0.win 3).blk t).view.set := by
  have hi0 : (i 0).val < 32 := (i 0).isLt
  have hi1 : (i 1).val < 1024 := (i 1).isLt
  let t : Fin cfg0.N := ⟨4 * ((i 0).val / 8) + 3, by rw [show cfg0.N = 16 from N_0]; omega⟩
  have ht : t.val = 4 * ((i 0).val / 8) + 3 := rfl
  obtain ⟨e0, e1⟩ := out_numbers t
  refine ⟨t, (flush0_3 t).mpr (by omega), ?_⟩
  rw [mem_block]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1024 ≤ (i 1).val ∧ (i 1).val < win0_3.index t (1 : Fin 2) * 1024 + 1024; omega

/-- So the result array ends holding the result function of the launched arguments. -/
theorem final (c : Dev nD) : (dats m 0 c).arrAt 3 cfg0.N = resultOf m c :=
  (dats m 0 c).arrAt_eq_of_cover 3 (resultOf m c) (flushed_eq m c) covered

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ResultArray

end
-- ==== Proof.ReferenceIs.lean ====
/-
  The reference computes the same function: its last stage, read at an index, is the result function.

  The reference sums `x` along its last axis in one go from zero, contracts the sums with `W` along the second axis of
  both, adds 2048 times the bias broadcast over the rows, and applies the mish tail, whose softplus is spelt with a
  negation where the kernel's is spelt `0 - |v|`, and whose guard `v ≠ v` never fires on the extended reals.
-/
import proofs.«127463_j77738908058130_1_alg».proof.Proof.Gen.ReferenceIdeal.Read
import proofs.«127463_j77738908058130_1_alg».proof.Proof.PooledMish

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PooledMish

/-- The reference's pre-activation stage at `(p, o)` is the specification's. -/
theorem pre_eq (x : FVec Ideal S32x1024x2048 .f32) (W : FVec Ideal S1024x1024 .f32) (b : FVec Ideal S1024 .f32)
    (p : Fin 32) (o : Fin 1024) :
    val_main_v6 (F := Ideal) x W b (ix2 p o) = pre x W b p.val o := by
  rw [val_main_v6_apply, val_main_v1_apply, val_main_v5_apply, val_main_v4_apply, val_main_v3_apply, val_main_v2_apply,
    val_main_cst_0_apply]
  unfold pre
  show (∑ k : Fin 1024, val_main_v0 (F := Ideal) x (lidx_main_v1 (ix2 p o) k) * W (ridx_main_v1 (ix2 p o) k))
      + Ideal.ofBits .f32 0x45000000#32 * b (idx_main_v4 (idx_main_v5 (ix2 p o))) = _
  have eb : idx_main_v4 (idx_main_v5 (ix2 p o)) = ix1 o := funext fun a => Fin.ext (by match a with | ⟨0, _⟩ => rfl)
  rw [eb]
  refine congrArg (· + _) (Finset.sum_congr rfl fun k _ => ?_)
  have er : ridx_main_v1 (ix2 p o) k = ix2 o k :=
    funext fun a => Fin.ext (by match a with | ⟨0, _⟩ => rfl | ⟨1, _⟩ => rfl)
  rw [er]
  refine congrArg (· * _) ?_
  rw [val_main_v0_apply, val_main_cst_apply]
  show Ideal.ofBits .f32 0x00000000#32 + ∑ l : Fin 2048, x (idx_main_v0 (lidx_main_v1 (ix2 p o) k) l) = laneSum x p.val k 2048
  rw [zero_word, zero_add, laneSum_full]
  exact Finset.sum_congr rfl fun l _ => congrArg x (funext fun a => Fin.ext (by
    match a with
    | ⟨0, _⟩ => rfl
    | ⟨1, _⟩ => rfl
    | ⟨2, _⟩ => rfl))

/-- The reference's result stage is the result function. -/
theorem reference_eq (x : FVec Ideal S32x1024x2048 .f32) (W : FVec Ideal S1024x1024 .f32) (b : FVec Ideal S1024 .f32) :
    val_main_v9 (F := Ideal) x W b = result x W b := by
  funext i
  obtain ⟨p, o, rfl⟩ : ∃ (p : Fin 32) (o : Fin 1024), i = ix2 p o := ⟨i 0, i 1, eq_ix2 i⟩
  show _ = mish (pre x W b p.val o)
  rw [← pre_eq x W b p o]
  unfold mish
  rw [← softplus_neg_form]
  rfl

end Cert.ReferenceIdeal.RefValue

end
-- ==== Proof.lean ====
/-
  The kernel and its reference compute one function over the extended reals.

  With `x` of shape [32, 1024, 2048], `W` of shape [1024, 1024] and `b` of shape [1024], both compute, at `(p, o)`,

      mish (∑ c, (∑ l, x[p, c, l]) * W[o, c] + 2048 * b[o]),      mish y = y * tanh (max y 0 + log1p (exp (-|y|))).

  The kernel walks a 4 × 4 grid. For each block of eight rows it sums the last axis in four stretches of 512 lanes,
  keeping the running sum in a scratch block that it resets at the first stretch; at the fourth stretch it projects
  the finished sums against `W`, adds the bias term, applies the tail and writes the block out. The reference sums the
  whole last axis at once. The two agree because addition of extended reals is associative, so the partial sums
  after `j + 1` stretches are the sums of the first `512 * (j + 1)` lanes whatever the entries are: no entry needs to be
  finite, and the precondition is never opened. The changes of float format before the kernel's product are the
  identity on extended reals, the guard `v ≠ v` in both spellings of softplus never fires, and `0 - a = -a`.

  The modules: the specification (PooledMish), what each run of the body leaves (BodyPieces), the stored expressions
  at an index (PayloadAt), the input blocks at an index (BlockReads), the scratch after each point (RunningSum), the
  result array after the run (ResultArray), and the reference's last stage (ReferenceIs). The three runs and the
  reference's stages are the generated modules imported below.
-/
import proofs.«127463_j77738908058130_1_alg».proof.Defs
import proofs.«127463_j77738908058130_1_alg».proof.Proof.Gen.Kernel
import proofs.«127463_j77738908058130_1_alg».proof.Proof.Gen.Kernel.Skeleton
import proofs.«127463_j77738908058130_1_alg».proof.Proof.Gen.Kernel.Launch
import proofs.«127463_j77738908058130_1_alg».proof.Proof.Gen.Kernel.Points
import proofs.«127463_j77738908058130_1_alg».proof.Proof.Gen.Kernel.Frame
import proofs.«127463_j77738908058130_1_alg».proof.Proof.Gen.KernelIdeal
import proofs.«127463_j77738908058130_1_alg».proof.Proof.Gen.KernelIdeal.Skeleton
import proofs.«127463_j77738908058130_1_alg».proof.Proof.Gen.KernelIdeal.Launch
import proofs.«127463_j77738908058130_1_alg».proof.Proof.Gen.KernelIdeal.Points
import proofs.«127463_j77738908058130_1_alg».proof.Proof.Gen.KernelIdeal.Frame
import proofs.«127463_j77738908058130_1_alg».proof.Proof.Gen.ReferenceIdeal
import proofs.«127463_j77738908058130_1_alg».proof.Proof.Gen.Pre_finite_inputs
import proofs.«127463_j77738908058130_1_alg».proof.Proof.Gen.KernelIdeal.Value
import proofs.«127463_j77738908058130_1_alg».proof.Proof.Gen.ReferenceIdeal.Run
import proofs.«127463_j77738908058130_1_alg».proof.Proof.Gen.ReferenceIdeal.Read
import proofs.«127463_j77738908058130_1_alg».proof.Proof.ResultArray
import proofs.«127463_j77738908058130_1_alg».proof.Proof.ReferenceIs
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, the kernel's result array ends at the result function of its arguments and the
    reference's last stage is the same function of the same arguments. -/
theorem algebraic : Cert.algebraic_KernelIdeal_ReferenceIdeal := by
  intro m ρ m' ρ' _ hagree
  refine ⟨fun c => Cert.KernelIdeal.ResultArray.resultOf m c, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
